-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S84281x512 : Shape := ⟨2, ![84281, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S84281x512 : S_.BroadcastsInDim S84281x512 (![] : Fin 0 → Fin S84281x512.rank)
  reducesTo_S84281x512_S_d0_1 : S84281x512.ReducesTo [0, 1] S_

variable [Facts]

def fn {F : FTy → Type} [FloatOps F] (main_arg0 : FVec F S512x512 .f32) (main_arg1 : FVec F S84281x512 .f32) (main_arg2 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S84281x512 .f32 := Host.absf main_arg1
  let main_cst_0 : FVec F S_ .f32 := constant S_ .f32 0x7F800000#32
  let main_v5 : FVec F S84281x512 .f32 := broadcastInDim S84281x512 ![] bcast_S_S84281x512 main_cst_0
  let main_v6 : IVec S84281x512 1 := cmpf .olt main_v4 main_v5
  let main_c_1 : IVec S_ 1 := constantI S_ 1 1#1
  let main_v7 : IVec S_ 1 := (fun x v => Host.reduce IntOp.andi x v reducesTo_S84281x512_S_d0_1 h_S_) main_v6 main_c_1
  let main_v8 : IVec S_ 1 := andi main_v3 main_v7
  main_v8
-- ==== Kernel.lean ====
abbrev S512x512 : Shape := ⟨2, ![512, 512]⟩
abbrev S84281x512 : Shape := ⟨2, ![84281, 512]⟩
abbrev S512 : Shape := ⟨1, ![512]⟩
abbrev S_ : Shape := ⟨0, ![]⟩
abbrev S512x1 : Shape := ⟨2, ![512, 1]⟩
abbrev S512x84281 : Shape := ⟨2, ![512, 84281]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 15
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S84281x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S512x1, .i32⟩
  | .hbm, ⟨14, _⟩ => ⟨S512x84281, .f32⟩
  | .local _ .vmem, ⟨0, _⟩ => ⟨S512x512, .f32⟩
  | .local _ .vmem, ⟨1, _⟩ => ⟨S1024x512, .f32⟩
  | .local _ .vmem, ⟨2, _⟩ => ⟨S1024x512, .f32⟩
  | .local _ .vmem, ⟨3, _⟩ => ⟨S512x1, .i32⟩
  | .local _ .vmem, ⟨4, _⟩ => ⟨S512x1024, .f32⟩
  | .local _ .vmem, ⟨5, _⟩ => ⟨S512x1024, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![83], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  shapeCasts_S512_S512x1 : S512.ShapeCasts S512x1
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  iota_S512x1024_d1_w32 : S512x1024.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x1024 : S512x1.Broadcasts S512x1024
  inb_S512x1024_S512x1024_0_0 : ∀ a, (![0, 0] : Fin 2 → Nat) a + S512x1024.size a ≤ S512x1024.size a
  h_S512x1024 : 0 < S512x1024.numel
  dot_S512x512_S1024x512_S512x1024_1_1_0_0_n_n_wf : DotDims.WF S512x512 S1024x512 S512x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S84281x512.size a
  hwx0_1 : ∀ i : grid0.Coords, EltTy.bits .f32 = 32 ∨ (Rect.unit (s := S84281x512) (fun a => cc0_transform_1 i a * S1024x512.size a) (fun a => (Pipeline.Clip.of (cc0_transform_1 i a) (S1024x512.size a) (S84281x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S84281x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .i32 = 32 ∨ (Rect.block (s := S512x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S512x1024.size a < S512x84281.size a
  hwx0_3 : ∀ i : grid0.Coords, EltTy.bits .f32 = 32 ∨ (Rect.unit (s := S512x84281) (fun a => cc0_transform_3 i a * S512x1024.size a) (fun a => (Pipeline.Clip.of (cc0_transform_3 i a) (S512x1024.size a) (S512x84281.size a)).extent (S512x1024.size a)) fun a => Pipeline.Clip.inb (Pipeline.Clip.ok_of (hstart0_3 i a))).WholeWords (EltTy.packing .f32)
  hwxs0_3 : ∀ i : grid0.Coords, EltTy.bits .f32 = 32 ∨ (Rect.unit (s := S512x1024) (fun _ => 0) (fun a => (Pipeline.Clip.of (cc0_transform_3 i a) (S512x1024.size a) (S512x84281.size a)).extent (S512x1024.size a)) fun a => (Nat.zero_add _).trans_le (Pipeline.Clip.extent_le (Pipeline.Clip.ok_of (hstart0_3 i a)))).WholeWords (EltTy.packing .f32)

variable [Facts₀]

def dot_S512x512_S1024x512_S512x1024_1_1_0_0_n_n : DotDims S512x512 S1024x512 S512x1024 where
  lhsContracting := [1]
  rhsContracting := [1]
  lhsNonContracting := [0]
  rhsNonContracting := [0]
  lhsBatch := []
  rhsBatch := []
  wf := dot_S512x512_S1024x512_S512x1024_1_1_0_0_n_n_wf

abbrev win0_0 : Pipeline.Window sig grid0 :=
  Pipeline.Window.ofSpec (Memref.whole main_v4) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v5) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v6) S512x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S84281x512 : Shape := ⟨2, ![84281, 512]⟩
abbrev S512 : Shape := ⟨1, ![512]⟩
abbrev S_ : Shape := ⟨0, ![]⟩
abbrev S512x1 : Shape := ⟨2, ![512, 1]⟩
abbrev S84281 : Shape := ⟨1, ![84281]⟩
abbrev S84281x1 : Shape := ⟨2, ![84281, 1]⟩
abbrev S512x84281 : Shape := ⟨2, ![512, 84281]⟩
abbrev S1x84281 : Shape := ⟨2, ![1, 84281]⟩

abbrev nBuf : Space → Nat
  | .hbm => 59
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S84281x512, .f32⟩
  | .hbm, ⟨2, _⟩ => ⟨S512, .i32⟩
  | .hbm, ⟨3, _⟩ => ⟨S512x512, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S512x512, .f32⟩
  | .hbm, ⟨12, _⟩ => ⟨S512x512, .f32⟩
  | .hbm, ⟨13, _⟩ => ⟨S84281x512, .f32⟩
  | .hbm, ⟨14, _⟩ => ⟨S_, .f32⟩
  | .hbm, ⟨15, _⟩ => ⟨S84281, .f32⟩
  | .hbm, ⟨16, _⟩ => ⟨S84281x1, .f32⟩
  | .hbm, ⟨17, _⟩ => ⟨S84281x1, .f32⟩
  | .hbm, ⟨18, _⟩ => ⟨S_, .f32⟩
  | .hbm, ⟨19, _⟩ => ⟨S84281x1, .f32⟩
  | .hbm, ⟨20, _⟩ => ⟨S84281x1, .f32⟩
  | .hbm, ⟨21, _⟩ => ⟨S84281x512, .f32⟩
  | .hbm, ⟨22, _⟩ => ⟨S84281x512, .f32⟩
  | .hbm, ⟨23, _⟩ => ⟨S512x84281, .f32⟩
  | .hbm, ⟨24, _⟩ => ⟨S512x84281, .f32⟩
  | .hbm, ⟨25, _⟩ => ⟨S_, .f32⟩
  | .hbm, ⟨26, _⟩ => ⟨S512x84281, .f32⟩
  | .hbm, ⟨27, _⟩ => ⟨S512x84281, .f32⟩
  | .hbm, ⟨28, _⟩ => ⟨S_, .f32⟩
  | .hbm, ⟨29, _⟩ => ⟨S512x84281, .f32⟩
  | .hbm, ⟨30, _⟩ => ⟨S512x84281, .f32⟩
  | .hbm, ⟨31, _⟩ => ⟨S512x84281, .f32⟩
  | .hbm, ⟨32, _⟩ => ⟨S_, .f32⟩
  | .hbm, ⟨33, _⟩ => ⟨S512x84281, .f32⟩
  | .hbm, ⟨34, _⟩ => ⟨S512x84281, .f32⟩
  | .hbm, ⟨35, _⟩ => ⟨S_, .f32⟩
  | .hbm, ⟨36, _⟩ => ⟨S512x84281, .f32⟩
  | .hbm, ⟨37, _⟩ => ⟨S512x84281, .f32⟩
  | .hbm, ⟨38, _⟩ => ⟨S512x84281, .f32⟩
  | .hbm, ⟨39, _⟩ => ⟨S_, .f32⟩
  | .hbm, ⟨40, _⟩ => ⟨S512x84281, .f32⟩
  | .hbm, ⟨41, _⟩ => ⟨S512x84281, .f32⟩
  | .hbm, ⟨42, _⟩ => ⟨S_, .f32⟩
  | .hbm, ⟨43, _⟩ => ⟨S512x84281, .f32⟩
  | .hbm, ⟨44, _⟩ => ⟨S512x84281, .i1⟩
  | .hbm, ⟨45, _⟩ => ⟨S_, .f32⟩
  | .hbm, ⟨46, _⟩ => ⟨S512x84281, .f32⟩
  | .hbm, ⟨47, _⟩ => ⟨S512x84281, .f32⟩
  | .hbm, ⟨48, _⟩ => ⟨S512x84281, .f32⟩
  | .hbm, ⟨49, _⟩ => ⟨S84281, .i32⟩
  | .hbm, ⟨50, _⟩ => ⟨S1x84281, .i32⟩
  | .hbm, ⟨51, _⟩ => ⟨S512x1, .i32⟩
  | .hbm, ⟨52, _⟩ => ⟨S512x84281, .i32⟩
  | .hbm, ⟨53, _⟩ => ⟨S512x84281, .i32⟩
  | .hbm, ⟨54, _⟩ => ⟨S512x84281, .i1⟩
  | .hbm, ⟨55, _⟩ => ⟨S512x84281, .f32⟩
  | .hbm, ⟨56, _⟩ => ⟨S_, .f32⟩
  | .hbm, ⟨57, _⟩ => ⟨S512x84281, .f32⟩
  | .hbm, ⟨58, _⟩ => ⟨S512x84281, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x512_0_1 : S512x1.BroadcastsInDim S512x512 (![0, 1] : Fin 2 → Fin S512x512.rank)
  reducesTo_S84281x512_S84281_d1 : S84281x512.ReducesTo [1] S84281
  bcast_S84281_S84281x1_0 : S84281.BroadcastsInDim S84281x1 (![0] : Fin 1 → Fin S84281x1.rank)
  bcast_S_S84281x1 : S_.BroadcastsInDim S84281x1 (![] : Fin 0 → Fin S84281x1.rank)
  bcast_S84281x1_S84281x512_0_1 : S84281x1.BroadcastsInDim S84281x512 (![0, 1] : Fin 2 → Fin S84281x512.rank)
  bcast_S_S512x84281 : S_.BroadcastsInDim S512x84281 (![] : Fin 0 → Fin S512x84281.rank)
  bcast_S84281_S1x84281_1 : S84281.BroadcastsInDim S1x84281 (![1] : Fin 1 → Fin S1x84281.rank)
  bcast_S1x84281_S512x84281_0_1 : S1x84281.BroadcastsInDim S512x84281 (![0, 1] : Fin 2 → Fin S512x84281.rank)
  bcast_S512x1_S512x84281_0_1 : S512x1.BroadcastsInDim S512x84281 (![0, 1] : Fin 2 → Fin S512x84281.rank)
  dot_S512x512_S84281x512_S512x84281_1_1_0_0_n_n_wf : DotDims.WF S512x512 S84281x512 S512x84281 [1] [1] [0] [0] [] []

variable [Facts₀]

def dot_S512x512_S84281x512_S512x84281_1_1_0_0_n_n : DotDims S512x512 S84281x512 S512x84281 where
  lhsContracting := [1]
  rhsContracting := [1]
  lhsNonContracting := [0]
  rhsNonContracting := [0]
  lhsBatch := []
  rhsBatch := []
  wf := dot_S512x512_S84281x512_S512x84281_1_1_0_0_n_n_wf

class Facts : Prop extends Facts₀ where

variable [Facts]
-- ==== Proof.KBody.lean ====
/-
  The kernel's body, its proof data and its body obligation, for every float instance.

  One grid point c stages x̂ (the row-normalised x, f32[512,512], resident), a block of 1024 rows of the weight
  table (the last block, rows 83968‥84991, overhangs the table's 84281 rows: only its first 313 rows are the
  table's, the staging rows past them hold words nothing names), and the labels as a column (i32[512,1]); it
  stores one block f32[512,1024] of the result,
      out[b, j] = 32 · (if 1024·c + j = label[b] then φ(cos[b, j]) else cos[b, j]),
      cos[b, j] = Σ_d x̂[b, d] · ŵ[j, d],   ŵ[j, ·] = w[j, ·] / max(√(Σ_d w[j, d]²), 1e-12),
  φ the additive-angular-margin map. Of the result's last block only the first 313 columns are written back.
-/
import proofs.«101190_j19877108646226_1_alg».proof.Proof.Gen.Kernel.Frame
import proofs.«101190_j19877108646226_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each staging buffer whole -/

abbrev rX : Rect S512x512 := Rect.unit (s := S512x512) ![0, 0] S512x512.size inb_S512x512_S512x512_0_0
abbrev rW : Rect S1024x512 := Rect.unit (s := S1024x512) ![0, 0] S1024x512.size inb_S1024x512_S1024x512_0_0
abbrev rL : Rect S512x1 := Rect.unit (s := S512x1) ![0, 0] S512x1.size inb_S512x1_S512x1_0_0
abbrev rO : Rect S512x1024 := Rect.unit (s := S512x1024) ![0, 0] S512x1024.size inb_S512x1024_S512x1024_0_0

/-- The whole-buffer rectangles start at the origin. -/
theorem off0 : (![0, 0] : Fin 2 → ℕ) = fun _ => 0 := funext fun a => by fin_cases a <;> rfl

/-- What the body leaves in the result's staging buffer at grid coordinates `i`, from what the three input
    buffers hold: its one store, of the scaled select. -/
def outBlk (i : grid0.Coords) (x0 : Vec F S512x512 .f32) (x1 : Vec F S1024x512 .f32) (x2 : Vec F S512x1 .i32) : Vec F S512x1024 .f32 :=
  View.canon [⟨rO, k0_pay1 (k0_pay2 i (View.ld x0 rX) (View.ld x1 rW) (View.ld x2 rL)) (Scalar.ofBits .f32 0x42000000#32)⟩]

/-- The one store covers the buffer. -/
theorem cover_rO (p : Vec F S512x1024 .f32) (y : S512x1024.Idx) :
    ∃ pc ∈ ([⟨rO, p⟩] : List (View.Piece (Elt F) S512x1024 .f32)), y ∈ pc.1.set :=
  View.cover_of_tiled [⟨rO, p⟩] S512x1024.size (by rfl) y

/-- The stored block is the payload of the three buffers' contents. -/
theorem outBlk_eq (i : grid0.Coords) (x0 : Vec F S512x512 .f32) (x1 : Vec F S1024x512 .f32) (x2 : Vec F S512x1 .i32) :
    outBlk i x0 x1 x2 = k0_pay1 (k0_pay2 i x0 x1 x2) (Scalar.ofBits .f32 0x42000000#32) := by
  unfold outBlk
  rw [View.canon_unit_zero off0]
  simp only [View.ld_unit_zero (S := S512x512) off0, View.ld_unit_zero (S := S1024x512) off0, View.ld_unit_zero (S := S512x1) off0]

/-! ## The body's triple -/

set_option maxHeartbeats 1000000 in
/-- The body on whole staging memrefs — the inputs' at contents `x0`, `x1`, `x2`, the result's at anything — runs
    to the continuation holding the inputs' as they were and the result's at `outBlk`. -/
theorem sound_kernel (c : Dev nD) (E : Set ℕ) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .i32) (harg3 : arg3.IsWhole) (arg4 : Memref sig .tc .vmem S512x1024 .f32) (harg4 : arg4.IsWhole)
    (x0 : Vec F S512x512 .f32) (x1 : Vec F S1024x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk i x0 x1 x2)) -∗ K ⟨⟩))
      ⊢ wp frame (wpE (defs₀ (F := F)) Variants.none c none) E (cc0__arcmargin_kernel i arg1 harg1 arg2 harg2 arg3 harg3 arg4 harg4) K := by
  simp only [cc0__arcmargin_kernel_eq_skeleton]; unfold cc0__arcmargin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_rO _)

/-! ## The pipeline's proof data -/

variable (m : (ℓ : Loc nD τ sig) → Buf (Elt F) ℓ)

/-- The weight window's staging buffer as the body leaves it, stated with the rows past the table's end at the
    zero word (what they hold nothing says, and nothing of them is written back). -/
def wfill (c : Dev nD) (t : Fin cfg0.N) : Vec F S1024x512 .f32 :=
  win0_1.fill (grid0.coords t) (fun _ => Scalar.ofBits .f32 0#32) (iblk m c 1 t)

/-- The proof data of the one pipeline on core `c`: the arrays as the region finds them; after the body at point `t`
    x̂'s and the labels' buffers at their blocks, the weight's at its block (filled out with zeros past the table's
    end) and the result's at the body's payload of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, _⟩ => outBlk (grid0.coords t) (iblk m c 0 t) (wfill m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (wfill m c t) (iblk m c 2 t) := by dsimp only [dats]

/-- x̂'s and the labels' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The weight's buffer is fetched at every point: its block on the rows inside the table, over whatever it held. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The result's buffer is written back at every point: the body finds in it words nothing names. -/
theorem before0_3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body at a generic point -/

/-- The body at point `t`, the weight's buffer holding its block over `d1`: the four buffers, the class invariant
    and the core's debts pass through; the result's buffer ends at the payload of the other three. -/
theorem sound_body (c : Dev nD) (t : Fin cfg0.N) (d1 : Vec F S1024x512 .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (iblk m c 2 t)
        ∗ (∃ d, owns (c : Thread nD τ) (st0_3 t) fullShare d)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare
                (outBlk (grid0.coords t) (iblk m c 0 t) (win0_1.fill (grid0.coords t) d1 (iblk m c 1 t)) (iblk m c 2 t))) -∗ K ⟨⟩))
      ⊢ wp frame (wpE (defs₀ (F := F)) Variants.none c none) Set.univ (bodyAt0 t) K :=
  sound_kernel c Set.univ (grid0.coords t) _ _ _ _ _ _ _ _ (iblk m c 0 t) (win0_1.fill (grid0.coords t) d1 (iblk m c 1 t)) (iblk m c 2 t) K

end Cert.Kernel.Body

end
-- ==== Proof.KFrame.lean ====
/-
  The frame of the program, for every float instance: it runs to the end, nothing faults, and x, the weight
  table and the labels end as they began. What the body leaves in the result's staging buffer is not stated
  here (the frame does not read the result): that window is handed to the body at any contents and taken back
  at any contents, the other three are kept at their blocks.
-/
import proofs.«101190_j19877108646226_1_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not read: the result's. -/
abbrev fgt : Fin cfg0.W → Bool := fun | 0 => false | 1 => false | 2 => false | 3 => true | ⟨_ + 4, h⟩ => absurd h (Nat.not_lt.2 (Nat.le_add_left _ _))

/-- The body obligation with the result's window forgotten: x̂'s, the weight's and the labels' buffers arrive at
    their blocks (the weight's over anything past the table's end) and leave so; the result's arrives and leaves at
    anything. -/
theorem body_obligation_fgt (c : Dev nD) :
    BodyObligationLoose (dats (F := F) m 0 c) (defs₀ (F := F)) Variants.none () Set.univ fgt := fun t => by
  rw [bigSep_W0, bigSep_W0]
  simp only [before0_0, before0_1, before0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (sound_body m c t d1 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0_0]; iexact H0
  isplitl [H1]
  · iexists d1
    rw [after0_1]; unfold wfill; rw [Window.cut_fill]; iexact H1
  isplitl [H2]
  · rw [after0_2]; iexact H2
  · iexists _; iexact H3

/-- The proof data read as relations, the result's window's saying nothing. -/
abbrev rdats (c : Dev nD) : RDat τ (Elt F) Unit ℕ (UR sig nD τ) ℕ cfg0 c := (dats m 0 c).toRForget fgt

set_option backward.isDefEq.respectTransparency.types false in
/-- At the compiled mesh, for any values, from any memory with zero counters: every weakly fair execution of @main
    terminates; each input window's array ends at its entry contents and every other unscoped buffer as the
    region found it. -/
theorem run_forget : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := fun c => (body_obligation_fgt m c).toRForget)
    (hshare := fun c => (rdats m c).share_full fun _ => rfl)
    (howed := fun _ _ => rfl) (V := V m) (hmain := hmain m Variants.none) (hA := fun c w => A_eq m c w) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (RDat.FramePost.arr_in h c 1 rfl).trans ((A_eq m c 1).trans (V_main_arg1 m c)),
      ((h c).2 main_arg2 (Pipeline.mem_restRefs_of main_arg2 (by decide) (by decide))).trans (V_main_arg2 m c)⟩) (run_forget m ρ)

end Cert.Kernel.Body

end
-- ==== Proof.KIBody.lean ====
/-
  The kernel's body, its proof data and its body obligation, for every float instance.

  One grid point c stages x̂ (the row-normalised x, f32[512,512], resident), a block of 1024 rows of the weight
  table (the last block, rows 83968‥84991, overhangs the table's 84281 rows: only its first 313 rows are the
  table's, the staging rows past them hold words nothing names), and the labels as a column (i32[512,1]); it
  stores one block f32[512,1024] of the result,
      out[b, j] = 32 · (if 1024·c + j = label[b] then φ(cos[b, j]) else cos[b, j]),
      cos[b, j] = Σ_d x̂[b, d] · ŵ[j, d],   ŵ[j, ·] = w[j, ·] / max(√(Σ_d w[j, d]²), 1e-12),
  φ the additive-angular-margin map. Of the result's last block only the first 313 columns are written back.
-/
import proofs.«101190_j19877108646226_1_alg».proof.Proof.Gen.KernelIdeal.Frame
import proofs.«101190_j19877108646226_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each staging buffer whole -/

abbrev rX : Rect S512x512 := Rect.unit (s := S512x512) ![0, 0] S512x512.size inb_S512x512_S512x512_0_0
abbrev rW : Rect S1024x512 := Rect.unit (s := S1024x512) ![0, 0] S1024x512.size inb_S1024x512_S1024x512_0_0
abbrev rL : Rect S512x1 := Rect.unit (s := S512x1) ![0, 0] S512x1.size inb_S512x1_S512x1_0_0
abbrev rO : Rect S512x1024 := Rect.unit (s := S512x1024) ![0, 0] S512x1024.size inb_S512x1024_S512x1024_0_0

/-- The whole-buffer rectangles start at the origin. -/
theorem off0 : (![0, 0] : Fin 2 → ℕ) = fun _ => 0 := funext fun a => by fin_cases a <;> rfl

/-- What the body leaves in the result's staging buffer at grid coordinates `i`, from what the three input
    buffers hold: its one store, of the scaled select. -/
def outBlk (i : grid0.Coords) (x0 : Vec F S512x512 .f32) (x1 : Vec F S1024x512 .f32) (x2 : Vec F S512x1 .i32) : Vec F S512x1024 .f32 :=
  View.canon [⟨rO, k0_pay1 (k0_pay2 i (View.ld x0 rX) (View.ld x1 rW) (View.ld x2 rL)) (Scalar.ofBits .f32 0x42000000#32)⟩]

/-- The one store covers the buffer. -/
theorem cover_rO (p : Vec F S512x1024 .f32) (y : S512x1024.Idx) :
    ∃ pc ∈ ([⟨rO, p⟩] : List (View.Piece (Elt F) S512x1024 .f32)), y ∈ pc.1.set :=
  View.cover_of_tiled [⟨rO, p⟩] S512x1024.size (by rfl) y

/-- The stored block is the payload of the three buffers' contents. -/
theorem outBlk_eq (i : grid0.Coords) (x0 : Vec F S512x512 .f32) (x1 : Vec F S1024x512 .f32) (x2 : Vec F S512x1 .i32) :
    outBlk i x0 x1 x2 = k0_pay1 (k0_pay2 i x0 x1 x2) (Scalar.ofBits .f32 0x42000000#32) := by
  unfold outBlk
  rw [View.canon_unit_zero off0]
  simp only [View.ld_unit_zero (S := S512x512) off0, View.ld_unit_zero (S := S1024x512) off0, View.ld_unit_zero (S := S512x1) off0]

/-! ## The body's triple -/

set_option maxHeartbeats 1000000 in
/-- The body on whole staging memrefs — the inputs' at contents `x0`, `x1`, `x2`, the result's at anything — runs
    to the continuation holding the inputs' as they were and the result's at `outBlk`. -/
theorem sound_kernel (c : Dev nD) (E : Set ℕ) (i : grid0.Coords)
    (arg1 : Memref sig .tc .vmem S512x512 .f32) (harg1 : arg1.IsWhole) (arg2 : Memref sig .tc .vmem S1024x512 .f32) (harg2 : arg2.IsWhole)
    (arg3 : Memref sig .tc .vmem S512x1 .i32) (harg3 : arg3.IsWhole) (arg4 : Memref sig .tc .vmem S512x1024 .f32) (harg4 : arg4.IsWhole)
    (x0 : Vec F S512x512 .f32) (x1 : Vec F S1024x512 .f32) (x2 : Vec F S512x1 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk i x0 x1 x2)) -∗ K ⟨⟩))
      ⊢ wp frame (wpE (defs₀ (F := F)) Variants.none c none) E (cc0__arcmargin_kernel i arg1 harg1 arg2 harg2 arg3 harg3 arg4 harg4) K := by
  simp only [cc0__arcmargin_kernel_eq_skeleton]; unfold cc0__arcmargin_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  try dsimp only
  exact View.read_writes_eq_canon _ _ _ (cover_rO _)

/-! ## The pipeline's proof data -/

variable (m : (ℓ : Loc nD τ sig) → Buf (Elt F) ℓ)

/-- The weight window's staging buffer as the body leaves it, stated with the rows past the table's end at the
    zero word (what they hold nothing says, and nothing of them is written back). -/
def wfill (c : Dev nD) (t : Fin cfg0.N) : Vec F S1024x512 .f32 :=
  win0_1.fill (grid0.coords t) (fun _ => Scalar.ofBits .f32 0#32) (iblk m c 1 t)

/-- The proof data of the one pipeline on core `c`: the arrays as the region finds them; after the body at point `t`
    x̂'s and the labels' buffers at their blocks, the weight's at its block (filled out with zeros past the table's
    end) and the result's at the body's payload of those; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wfill m c t
    | ⟨2, _⟩ => iblk m c 2 t
    | ⟨3, _⟩ => outBlk (grid0.coords t) (iblk m c 0 t) (wfill m c t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = wfill m c t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (grid0.coords t) (iblk m c 0 t) (wfill m c t) (iblk m c 2 t) := by dsimp only [dats]

/-- x̂'s and the labels' buffers hold their blocks at every point, fetched there or not. -/
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d

/-- The weight's buffer is fetched at every point: its block on the rows inside the table, over whatever it held. -/
theorem before0_1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]

/-- The result's buffer is written back at every point: the body finds in it words nothing names. -/
theorem before0_3 (c : Dev nD) (t : Fin cfg0.N) (d) : (dats m 0 c).before 3 t d = d := by
  refine (dats m 0 c).before_out_reset 3 rfl t ?_ d
  by_cases h0 : t.val = 0
  · exact .inl h0
  · exact .inr ⟨h0, flush0_3 _⟩

/-! ## The body at a generic point -/

/-- The body at point `t`, the weight's buffer holding its block over `d1`: the four buffers, the class invariant
    and the core's debts pass through; the result's buffer ends at the payload of the other three. -/
theorem sound_body (c : Dev nD) (t : Fin cfg0.N) (d1 : Vec F S1024x512 .f32) (K : PUnit → sProp 𝕄) :
    iprop(owns (c : Thread nD τ) (st0_0 t) fullShare (iblk m c 0 t)
        ∗ owns (c : Thread nD τ) (st0_1 t) fullShare (win0_1.fill (grid0.coords t) d1 (iblk m c 1 t))
        ∗ owns (c : Thread nD τ) (st0_2 t) fullShare (iblk m c 2 t)
        ∗ (∃ d, owns (c : Thread nD τ) (st0_3 t) fullShare d)
        ∗ (iprop(owns (c : Thread nD τ) (st0_0 t) fullShare (iblk m c 0 t)
            ∗ owns (c : Thread nD τ) (st0_1 t) fullShare (win0_1.fill (grid0.coords t) d1 (iblk m c 1 t))
            ∗ owns (c : Thread nD τ) (st0_2 t) fullShare (iblk m c 2 t)
            ∗ owns (c : Thread nD τ) (st0_3 t) fullShare
                (outBlk (grid0.coords t) (iblk m c 0 t) (win0_1.fill (grid0.coords t) d1 (iblk m c 1 t)) (iblk m c 2 t))) -∗ K ⟨⟩))
      ⊢ wp frame (wpE (defs₀ (F := F)) Variants.none c none) Set.univ (bodyAt0 t) K :=
  sound_kernel c Set.univ (grid0.coords t) _ _ _ _ _ _ _ _ (iblk m c 0 t) (win0_1.fill (grid0.coords t) d1 (iblk m c 1 t)) (iblk m c 2 t) K

end Cert.KernelIdeal.Body

end
-- ==== Proof.KIFrame.lean ====
/-
  The frame of the program, for every float instance: it runs to the end, nothing faults, and x, the weight
  table and the labels end as they began. What the body leaves in the result's staging buffer is not stated
  here (the frame does not read the result): that window is handed to the body at any contents and taken back
  at any contents, the other three are kept at their blocks.
-/
import proofs.«101190_j19877108646226_1_alg».proof.Proof.KIBody

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not read: the result's. -/
abbrev fgt : Fin cfg0.W → Bool := fun | 0 => false | 1 => false | 2 => false | 3 => true | ⟨_ + 4, h⟩ => absurd h (Nat.not_lt.2 (Nat.le_add_left _ _))

/-- The body obligation with the result's window forgotten: x̂'s, the weight's and the labels' buffers arrive at
    their blocks (the weight's over anything past the table's end) and leave so; the result's arrives and leaves at
    anything. -/
theorem body_obligation_fgt (c : Dev nD) :
    BodyObligationLoose (dats (F := F) m 0 c) (defs₀ (F := F)) Variants.none () Set.univ fgt := fun t => by
  rw [bigSep_W0, bigSep_W0]
  simp only [before0_0, before0_1, before0_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (sound_body m c t d1 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0_0]; iexact H0
  isplitl [H1]
  · iexists d1
    rw [after0_1]; unfold wfill; rw [Window.cut_fill]; iexact H1
  isplitl [H2]
  · rw [after0_2]; iexact H2
  · iexists _; iexact H3

/-- The proof data read as relations, the result's window's saying nothing. -/
abbrev rdats (c : Dev nD) : RDat τ (Elt F) Unit ℕ (UR sig nD τ) ℕ cfg0 c := (dats m 0 c).toRForget fgt

set_option backward.isDefEq.respectTransparency.types false in
/-- At the compiled mesh, for any values, from any memory with zero counters: every weakly fair execution of @main
    terminates; each input window's array ends at its entry contents and every other unscoped buffer as the
    region found it. -/
theorem run_forget : θ_run defs (onTc (τ := τ) (main (F := F))) (s₀ m ρ) (RDat.FramePost cfg0 (rdats m) (V m)) :=
  Pipeline.RDat.θ_run_frame cfgs (0 : Fin 1) launch0 defs₀ Variants.none (rdats m) m ρ main
    (hbody := fun c => (body_obligation_fgt m c).toRForget)
    (hshare := fun c => (rdats m c).share_full fun _ => rfl)
    (howed := fun _ _ => rfl) (V := V m) (hmain := hmain m Variants.none) (hA := fun c w => A_eq m c w) (hΦ := fun _ _ => rfl)

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      (RDat.FramePost.arr_in h c 1 rfl).trans ((A_eq m c 1).trans (V_main_arg1 m c)),
      ((h c).2 main_arg2 (Pipeline.mem_restRefs_of main_arg2 (by decide) (by decide))).trans (V_main_arg2 m c)⟩) (run_forget m ρ)

end Cert.KernelIdeal.Body

end
-- ==== Proof.Spec.lean ====
/-
  The specification, over the extended reals: the additive-angular-margin logits
      out[b, c] = 32 · (if c = label[b] then φ(cos[b, c]) else cos[b, c]),
      cos[b, c] = Σ_d x̂[b, d] · w[c, d] / max(√(Σ_d w[c, d]²), ε),
      φ(t) = if t − cos(π − ½) > 0 then t·cos ½ − √(max(1 − t², 0))·sin ½ else t − ½·sin(π − ½),
  the constants the f32 words both programs spell (never evaluated: each side carries the same word).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The clamp 1e-12 under a row's norm, as its f32 word. -/
def eps : EReal := Ideal.ofBits .f32 0x2B8CBCCC#32

/-- A row's clamped norm: max(√(Σ_k r[k]²), ε). -/
def rowDen (r : Fin 512 → EReal) : EReal := max (Ideal.sqrt (∑ k : Fin 512, r k * r k)) eps

/-- The cosine of a (normalised) row of x̂ against a raw row of the weight table. -/
def cosine (xr wr : Fin 512 → EReal) : EReal := ∑ k : Fin 512, xr k * Ideal.div (wr k) (rowDen wr)

/-- The margin map on a cosine, selected where the column is the row's label (`hit`), and the scale by 32. -/
def margin (cs : EReal) (hit : BitVec 1) : EReal :=
  Scalar.select hit
    (Scalar.select (Ideal.cmp .ogt (cs - Ideal.ofBits .f32 0xBF60A940#32) (Ideal.ofBits .f32 0x00000000#32))
      (cs * Ideal.ofBits .f32 0x3F60A940#32
        - Ideal.sqrt (max (Ideal.ofBits .f32 0x3F800000#32 - cs * cs) (Ideal.ofBits .f32 0x00000000#32)) * Ideal.ofBits .f32 0x3EF57744#32)
      (cs - Ideal.ofBits .f32 0x3E757744#32))
    cs
  * Ideal.ofBits .f32 0x42000000#32

/-- The whole result: entry (b, c) from row b of x̂, row c of the weight table and label b. -/
def logits (xh : (⟨2, ![512, 512]⟩ : Shape).Idx → EReal) (w : (⟨2, ![84281, 512]⟩ : Shape).Idx → EReal)
    (lbl : Fin 512 → BitVec 32) : (⟨2, ![512, 84281]⟩ : Shape).Idx → EReal := fun i =>
  margin (cosine (fun k => xh (ix2 (i 0) k)) (fun k => w (ix2 (i 1) k))) (IntOp.cmpi .eq (BitVec.ofNat 32 (i 1).val) (lbl (i 0)))

end Cert.Spec

end
-- ==== Proof.KIPayload.lean ====
/-
  The body's payload read at an entry, over the extended reals: entry (b, j) of the block the body stores at grid
  coordinate c is the margin map of the cosine of row b of the x̂ buffer against row j of the weight buffer,
  selected where 1024·c + j is the word of label b — a function of row j of the weight buffer ALONE among its rows.
-/
import proofs.«101190_j19877108646226_1_alg».proof.Proof.Gen.KernelIdeal.Skeleton
import proofs.«101190_j19877108646226_1_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The row sums of squares of the weight buffer, as the body's lane reduction computes them. -/
theorem sumsq_apply (x1 : FVec Ideal S1024x512 .f32) (j : Fin 1024) :
    multiReduction (F := Ideal) .add [1] S1024 (mulf x1 x1) 0x00000000#32 reduces_S1024x512_S1024 (.inl rfl) rfl (ix1 j)
      = ∑ k : Fin 512, x1 (ix2 j k) * x1 (ix2 j k) := by
  refine (Ideal.multiReduction_add_single (mulf x1 x1) _ reduces_S1024x512_S1024 (.inl rfl) rfl (ix1 j)).trans ?_
  refine Finset.sum_congr rfl fun k _ => ?_
  have e : (reduces_S1024x512_S1024.lift (ix1 j) k : S1024x512.Idx) = ix2 j k :=
    funext fun a => Fin.ext (by match a with | ⟨0, _⟩ => rfl | ⟨1, _⟩ => rfl)
  rw [mulf_apply, e]
  rfl

/-- The weight buffer's rows divided by their clamped norms, at an entry: row j's entry k over row j's norm. -/
theorem wn_apply (x1 : FVec Ideal S1024x512 .f32) (j : Fin 1024) (k : Fin 512) :
    divf x1 (broadcastTo S1024x512 (maximumf (sqrt (shapeCast S1024x1 (multiReduction (F := Ideal) .add [1] S1024 (mulf x1 x1) 0x00000000#32 reduces_S1024x512_S1024 (.inl rfl) rfl) shapeCasts_S1024_S1024x1))
        (broadcast S1024x1 (Scalar.ofBits (F := Ideal) .f32 0x2B8CBCCC#32))) broadcasts_S1024x1_S1024x512) (ix2 j k)
      = Ideal.div (x1 (ix2 j k)) (Spec.rowDen fun k' => x1 (ix2 j k')) := by
  rw [divf_apply]
  congr 1
  rw [broadcastTo_apply _ broadcasts_S1024x1_S1024x512 (ix2 j k) (ix2 j (0 : Fin 1)) (fun a => by
    match a with
    | ⟨0, _⟩ => show j.val = if (1024 : Nat) = 1 then 0 else j.val; rw [if_neg (by decide)]
    | ⟨1, _⟩ => show 0 = if (1 : Nat) = 1 then 0 else k.val; rw [if_pos rfl])]
  rw [maximumf_apply, broadcast_apply]
  show max (Ideal.sqrt (shapeCast S1024x1 _ shapeCasts_S1024_S1024x1 (ix2 j (0 : Fin 1)))) _ = _
  rw [shapeCast_apply _ shapeCasts_S1024_S1024x1 (ix2 j (0 : Fin 1)) (ix1 j) (by
    rw [Shape.rowMajor_val_one, Shape.rowMajor_val_two]; show j.val = j.val * 1 + 0; omega)]
  rw [sumsq_apply]
  rfl

/-- The product's operand indices, axis by axis: the left operand is read at (row, contraction), the right at
    (column, contraction). -/
theorem lhs_dot_0 (i : S512x1024.Idx) (q : dot_S512x512_S1024x512_S512x1024_1_1_0_0_n_n.contr.Idx) :
    (dot_S512x512_S1024x512_S512x1024_1_1_0_0_n_n.lhsIdx i q 0).val = (i 0).val := by
  unfold DotDims.lhsIdx
  rw [dif_neg (show ¬(0 : Fin S512x512.rank) ∈ dot_S512x512_S1024x512_S512x1024_1_1_0_0_n_n.lhsBatch by decide), dif_pos (show (0 : Fin S512x512.rank) ∈ dot_S512x512_S1024x512_S512x1024_1_1_0_0_n_n.lhsNonContracting by decide)]
  rfl
theorem lhs_dot_1 (i : S512x1024.Idx) (q : dot_S512x512_S1024x512_S512x1024_1_1_0_0_n_n.contr.Idx) :
    (dot_S512x512_S1024x512_S512x1024_1_1_0_0_n_n.lhsIdx i q 1).val = (q ⟨0, by decide⟩).val :=
  dot_S512x512_S1024x512_S512x1024_1_1_0_0_n_n.lhsIdx_val_of_single rfl i q
theorem rhs_dot_0 (i : S512x1024.Idx) (q : dot_S512x512_S1024x512_S512x1024_1_1_0_0_n_n.contr.Idx) :
    (dot_S512x512_S1024x512_S512x1024_1_1_0_0_n_n.rhsIdx i q 0).val = (i 1).val := by
  unfold DotDims.rhsIdx
  rw [dif_neg (show ¬(0 : Fin S1024x512.rank) ∈ dot_S512x512_S1024x512_S512x1024_1_1_0_0_n_n.rhsBatch by decide), dif_pos (show (0 : Fin S1024x512.rank) ∈ dot_S512x512_S1024x512_S512x1024_1_1_0_0_n_n.rhsNonContracting by decide)]
  rfl
theorem rhs_dot_1 (i : S512x1024.Idx) (q : dot_S512x512_S1024x512_S512x1024_1_1_0_0_n_n.contr.Idx) :
    (dot_S512x512_S1024x512_S512x1024_1_1_0_0_n_n.rhsIdx i q 1).val = (q ⟨0, by decide⟩).val :=
  dot_S512x512_S1024x512_S512x1024_1_1_0_0_n_n.rhsIdx_val_of_single rfl i q

/-- The cosines: the matrix product of the x̂ buffer with the normalised weight buffer, contracted over the 512 features. -/
theorem cos_apply (l : FVec Ideal S512x512 .bf16) (r : FVec Ideal S1024x512 .bf16) (b : Fin 512) (j : Fin 1024) :
    matmul dot_S512x512_S1024x512_S512x1024_1_1_0_0_n_n none l r (constant S512x1024 .f32 0x00000000#32) (ix2 b j)
      = ∑ k : Fin 512, l (ix2 b k) * r (ix2 j k) := by
  simp only [matmul]
  rw [Ideal.matmul_constant_zero_apply, ← Equiv.sum_comp (ValueIdx.contrEquiv1 dot_S512x512_S1024x512_S512x1024_1_1_0_0_n_n 512 rfl rfl).symm]
  refine Finset.sum_congr rfl fun k _ => ?_
  have hk := ValueIdx.contrEquiv1_symm_val dot_S512x512_S1024x512_S512x1024_1_1_0_0_n_n 512 rfl rfl k
  have el : dot_S512x512_S1024x512_S512x1024_1_1_0_0_n_n.lhsIdx (ix2 b j) ((ValueIdx.contrEquiv1 dot_S512x512_S1024x512_S512x1024_1_1_0_0_n_n 512 rfl rfl).symm k) = ix2 b k := funext fun a => Fin.ext (by
    match a with
    | ⟨0, _⟩ => exact lhs_dot_0 _ _
    | ⟨1, _⟩ => exact (lhs_dot_1 _ _).trans hk)
  have er : dot_S512x512_S1024x512_S512x1024_1_1_0_0_n_n.rhsIdx (ix2 b j) ((ValueIdx.contrEquiv1 dot_S512x512_S1024x512_S512x1024_1_1_0_0_n_n 512 rfl rfl).symm k) = ix2 j k := funext fun a => Fin.ext (by
    match a with
    | ⟨0, _⟩ => exact rhs_dot_0 _ _
    | ⟨1, _⟩ => exact (rhs_dot_1 _ _).trans hk)
  rw [el, er]

/-- A vector square root reads entry by entry. -/
theorem sqrt_apply {s : Shape} {φ : FTy} (a : FVec Ideal s φ) (i : s.Idx) : sqrt a i = Ideal.sqrt (a i) := rfl

/-- The column numbers of the block: 1024·c + j, in 32-bit words. -/
theorem col_apply (i : grid0.Coords) (b : Fin 512) (j : Fin 1024) :
    addi (broadcast S512x1024 (Scalar.muli (BitVec.ofNat 32 (i 0).val) 1024#32)) (iota .tc S512x1024 32 [1] iota_S512x1024_d1_w32) (ix2 b j)
      = BitVec.ofNat 32 (i 0).val * 1024#32 + BitVec.ofNat 32 j.val := by
  show IntOp.addi _ (iota .tc S512x1024 32 [1] iota_S512x1024_d1_w32 (ix2 b j)) = _
  rw [iota_single_apply]
  rfl

/-- The labels' column spread over the block's columns reads, at (b, j), label b. -/
theorem lbl_apply (x2 : Vec Ideal S512x1 .i32) (b : Fin 512) (j : Fin 1024) :
    broadcastTo S512x1024 (shapeCast S512x1 x2 shapeCasts_S512x1_S512x1) broadcasts_S512x1_S512x1024 (ix2 b j) = x2 (ix2 b (0 : Fin 1)) := by
  rw [shapeCast_self]
  exact broadcastTo_apply _ broadcasts_S512x1_S512x1024 (ix2 b j) (ix2 b (0 : Fin 1)) (fun a => by
    match a with
    | ⟨0, _⟩ => show b.val = if (512 : Nat) = 1 then 0 else b.val; rw [if_neg (by decide)]
    | ⟨1, _⟩ => show 0 = if (1 : Nat) = 1 then 0 else j.val; rw [if_pos rfl])

/-- THE PAYLOAD AT AN ENTRY: entry (b, j) of what the body stores at grid coordinate `i` is the specification's margin
    map of the cosine of row b of the x̂ buffer against row j of the weight buffer, hit where 1024·i + j is label b's
    word. Of the weight buffer it reads row j only. -/
theorem out_apply (i : grid0.Coords) (x0 : Vec Ideal S512x512 .f32) (x1 : Vec Ideal S1024x512 .f32) (x2 : Vec Ideal S512x1 .i32)
    (b : Fin 512) (j : Fin 1024) :
    k0_pay1 (k0_pay2 i x0 x1 x2) (Scalar.ofBits (F := Ideal) .f32 0x42000000#32) (ix2 b j)
      = Spec.margin (Spec.cosine (fun k => x0 (ix2 b k)) (fun k => x1 (ix2 j k)))
          (IntOp.cmpi .eq (BitVec.ofNat 32 (i 0).val * 1024#32 + BitVec.ofNat 32 j.val) (x2 (ix2 b (0 : Fin 1)))) := by
  unfold k0_pay1 k0_pay2
  dsimp only
  have hc : matmul dot_S512x512_S1024x512_S512x1024_1_1_0_0_n_n none
        (truncf .bf16 (shapeCast S512x512 x0 shapeCasts_S512x512_S512x512) bitsLt_bf16_f32)
        (truncf .bf16 (divf x1 (broadcastTo S1024x512 (maximumf (sqrt (shapeCast S1024x1 (multiReduction (F := Ideal) .add [1] S1024 (mulf x1 x1) 0x00000000#32 reduces_S1024x512_S1024 (.inl rfl) rfl) shapeCasts_S1024_S1024x1))
          (broadcast S1024x1 (Scalar.ofBits (F := Ideal) .f32 0x2B8CBCCC#32))) broadcasts_S1024x1_S1024x512)) bitsLt_bf16_f32)
        (constant S512x1024 .f32 0x00000000#32) (ix2 b j)
      = Spec.cosine (fun k => x0 (ix2 b k)) (fun k => x1 (ix2 j k)) := by
    rw [cos_apply]; unfold Spec.cosine
    refine Finset.sum_congr rfl fun k _ => ?_
    rw [truncf_apply, truncf_apply, shapeCast_self, wn_apply]
  simp only [mulf_apply, subf_apply, maximumf_apply, broadcast_apply, select_apply, cmpf_apply, sqrt_apply, hc]
  show Scalar.select (IntOp.cmpi .eq (addi _ _ (ix2 b j)) (broadcastTo S512x1024 _ _ (ix2 b j))) _ _ * _ = _
  rw [col_apply i b j, lbl_apply x2 b j]
  rfl

end Cert.KernelIdeal.Payload

end
-- ==== Proof.KIExact.lean ====
/-
  The idealized kernel's run with its result named. Over the extended reals entry (b, j) of the block a point
  stores reads row j of the weight's staging buffer alone, and a stored column j that is written back is a row of
  the table (the result's last block and the weight's last block are cut alike, at the table's 84281 rows), so
  what is written back does not depend on the words past the table's end; the blocks written back tile the
  result, which therefore ends holding the specification's logits of x̂, the weight table and the labels.
-/
import proofs.«101190_j19877108646226_1_alg».proof.Proof.KIBody
import proofs.«101190_j19877108646226_1_alg».proof.Proof.KIPayload

set_option maxRecDepth 16384

noncomputable section

namespace Cert.KernelIdeal.Exact

open Cert.KernelIdeal Cert.KernelIdeal.Gen Cert.KernelIdeal.Body Cert.KernelIdeal.Payload
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The index maps and the cuts, over the grid -/

/-- Point t stages all of x̂ and of the labels, rows 1024·t‥ of the weight table and columns 1024·t‥ of the result;
    the weight's rows and the result's columns are cut at 84281, the other axes whole. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ (grid0.coords t 0).val = t.val
    ∧ win0_1.xsize (grid0.coords t) (0 : Fin 2) = (if (t.val + 1) * 1024 ≤ 84281 then 1024 else 84281 - t.val * 1024)
    ∧ win0_1.xsize (grid0.coords t) (1 : Fin 2) = 512
    ∧ win0_3.xsize (grid0.coords t) (0 : Fin 2) = 512
    ∧ win0_3.xsize (grid0.coords t) (1 : Fin 2) = (if (t.val + 1) * 1024 ≤ 84281 then 1024 else 84281 - t.val * 1024) :=
  (by decide +kernel : ∀ t : Fin grid0.N, _)

/-! ## The weight's staging buffer, row by row -/

/-- A row of the weight's staging buffer that the fetch moves holds the block's row, whatever the buffer held. -/
theorem fill_row (i : grid0.Coords) (d : Vec Ideal S1024x512 .f32) (g : (win0_1.xblock i).Idx → Elt Ideal .f32)
    (j : Fin 1024) (k : Fin 512) (hj : j.val < win0_1.xsize i (0 : Fin 2)) (hk : k.val < win0_1.xsize i (1 : Fin 2)) :
    win0_1.fill i d g (ix2 j k) = g (fun a => match a with | ⟨0, _⟩ => ⟨j.val, hj⟩ | ⟨1, _⟩ => ⟨k.val, hk⟩) := by
  have hm : win0_1.moved i (ix2 j k) = true := (win0_1.moved_iff i _).mpr fun a => by
    match a with
    | ⟨0, _⟩ => exact hj
    | ⟨1, _⟩ => exact hk
  unfold Window.fill
  rw [dif_pos hm]
  exact congrArg g (funext fun a => by match a with | ⟨0, _⟩ => rfl | ⟨1, _⟩ => rfl)

/-- At point t, row j of the weight's staging buffer inside the table is row 1024·t + j of the table. -/
theorem wrow_apply (c : Dev nD) (t : Fin cfg0.N) (d : Vec Ideal S1024x512 .f32) (j : Fin 1024) (k : Fin 512)
    (hj : j.val < win0_1.xsize (grid0.coords t) (0 : Fin 2)) (hr : t.val * 1024 + j.val < 84281) :
    win0_1.fill (grid0.coords t) d (iblk m c 1 t) (ix2 j k)
      = V m c main_arg1 (ix2 (⟨t.val * 1024 + j.val, hr⟩ : Fin 84281) k) := by
  obtain ⟨-, -, e2, e3, -, -, -, -, -, -, e10, -, -⟩ := idx_facts t
  rw [fill_row (grid0.coords t) d (iblk m c 1 t) j k hj (by rw [e10]; exact k.isLt)]
  unfold iblk
  rw [View.read_apply]
  show V m c main_arg1 _ = V m c main_arg1 _
  refine congrArg (V m c main_arg1) (funext fun a => Fin.ext ?_)
  match a with
  | ⟨0, _⟩ => show win0_1.index t (0 : Fin 2) * 1024 + 1 * j.val = t.val * 1024 + j.val; omega
  | ⟨1, _⟩ => show win0_1.index t (1 : Fin 2) * 512 + 1 * k.val = k.val; omega

/-! ## What is written back does not depend on the words past the table's end -/

/-- The part of the stored block that is written back, at point t: its entry (b, j) with 1024·t + j a row of the
    table, whatever the weight's staging buffer held past the table's end (`d`). -/
theorem cut_out_apply (c : Dev nD) (t : Fin cfg0.N) (d : Vec Ideal S1024x512 .f32) (jj : (win0_3.xblock (grid0.coords t)).Idx) :
    win0_3.cut (grid0.coords t) (outBlk (grid0.coords t) (iblk m c 0 t) (win0_1.fill (grid0.coords t) d (iblk m c 1 t)) (iblk m c 2 t)) jj
      = Spec.logits (V m c main_v4) (V m c main_arg1) (fun b => V m c main_v5 (ix2 b (0 : Fin 1))) (((cfg0.win 3).blk t).view.emb jj) := by
  obtain ⟨e0, e1, e2, e3, e4, e5, e6, e7, e8, e9, e10, e11, e12⟩ := idx_facts t
  have hb : (jj 0).val < 512 := by
    have h : (jj 0).val < win0_3.xsize (grid0.coords t) (0 : Fin 2) := (jj 0).isLt
    rw [e11] at h; exact h
  have hj1 : (jj 1).val < win0_1.xsize (grid0.coords t) (0 : Fin 2) := by
    have h : (jj 1).val < win0_3.xsize (grid0.coords t) (1 : Fin 2) := (jj 1).isLt
    rw [e12] at h; rw [e9]; exact h
  have hj : (jj 1).val < 1024 := by rw [e9] at hj1; split at hj1 <;> omega
  have hr : t.val * 1024 + (jj 1).val < 84281 := by rw [e9] at hj1; split at hj1 <;> omega
  show outBlk (grid0.coords t) (iblk m c 0 t) (win0_1.fill (grid0.coords t) d (iblk m c 1 t)) (iblk m c 2 t) (win0_3.xinj (grid0.coords t) jj) = _
  rw [outBlk_eq]
  have hx : win0_3.xinj (grid0.coords t) jj = ix2 (⟨(jj 0).val, hb⟩ : Fin 512) (⟨(jj 1).val, hj⟩ : Fin 1024) :=
    funext fun a => Fin.ext (by match a with | ⟨0, _⟩ => rfl | ⟨1, _⟩ => rfl)
  rw [hx]
  refine (out_apply (grid0.coords t) (iblk m c 0 t) (win0_1.fill (grid0.coords t) d (iblk m c 1 t)) (iblk m c 2 t) ⟨(jj 0).val, hb⟩ ⟨(jj 1).val, hj⟩).trans ?_
  unfold Spec.logits
  -- the array index under the block's entry
  have hi0 : ((((cfg0.win 3).blk t).view.emb jj) 0).val = (jj 0).val := by
    show win0_3.index t (0 : Fin 2) * 512 + 1 * (jj 0).val = _; omega
  have hi1 : ((((cfg0.win 3).blk t).view.emb jj) 1).val = t.val * 1024 + (jj 1).val := by
    show win0_3.index t (1 : Fin 2) * 1024 + 1 * (jj 1).val = _; omega
  have hI0 : (((cfg0.win 3).blk t).view.emb jj) 0 = (⟨(jj 0).val, hb⟩ : Fin 512) := Fin.ext hi0
  have hI1 : (((cfg0.win 3).blk t).view.emb jj) 1 = (⟨t.val * 1024 + (jj 1).val, hr⟩ : Fin 84281) := Fin.ext hi1
  rw [hI0, hI1]
  -- the three buffers at the entry's row and column
  have hx0 : (fun k : Fin 512 => iblk m c 0 t (ix2 (⟨(jj 0).val, hb⟩ : Fin 512) k)) = fun k => V m c main_v4 (ix2 (⟨(jj 0).val, hb⟩ : Fin 512) k) := by
    funext k
    unfold iblk; rw [View.read_apply]
    show V m c main_v4 _ = V m c main_v4 _
    refine congrArg (V m c main_v4) (funext fun a => Fin.ext ?_)
    match a with
    | ⟨0, _⟩ => show win0_0.index t (0 : Fin 2) * 512 + 1 * (jj 0).val = (jj 0).val; omega
    | ⟨1, _⟩ => show win0_0.index t (1 : Fin 2) * 512 + 1 * k.val = k.val; omega
  have hx1 : (fun k : Fin 512 => win0_1.fill (grid0.coords t) d (iblk m c 1 t) (ix2 (⟨(jj 1).val, hj⟩ : Fin 1024) k))
      = fun k => V m c main_arg1 (ix2 (⟨t.val * 1024 + (jj 1).val, hr⟩ : Fin 84281) k) :=
    funext fun k => wrow_apply m c t d ⟨(jj 1).val, hj⟩ k hj1 hr
  have hx2 : iblk m c 2 t (ix2 (⟨(jj 0).val, hb⟩ : Fin 512) (0 : Fin 1)) = V m c main_v5 (ix2 (⟨(jj 0).val, hb⟩ : Fin 512) (0 : Fin 1)) := by
    unfold iblk; rw [View.read_apply]
    show V m c main_v5 _ = V m c main_v5 _
    refine congrArg (V m c main_v5) (funext fun a => Fin.ext ?_)
    match a with
    | ⟨0, _⟩ => show win0_2.index t (0 : Fin 2) * 512 + 1 * (jj 0).val = (jj 0).val; omega
    | ⟨1, _⟩ => show win0_2.index t (1 : Fin 2) * 1 + 1 * 0 = 0; omega
  have hcol : BitVec.ofNat 32 (grid0.coords t 0).val * 1024#32 + BitVec.ofNat 32 (jj 1).val = BitVec.ofNat 32 (t.val * 1024 + (jj 1).val) := by
    rw [e8]
    apply BitVec.eq_of_toNat_eq
    have ht : t.val < 83 := t.isLt
    simp only [BitVec.toNat_add, BitVec.toNat_mul, BitVec.toNat_ofNat]
    omega
  rw [hx0, hx1, hx2, hcol]

/-! ## The exact body obligation -/

/-- The body obligation with every window's contents stated: as the frame's, and the result's buffer leaves holding,
    on the columns written back, the payload of x̂'s block, the weight's block and the labels'. -/
theorem body_obligation (c : Dev nD) :
    BodyObligationLoose (dats (F := Ideal) m 0 c) (defs₀ (F := Ideal)) Variants.none () Set.univ := fun t => by
  rw [bigSep_W0, bigSep_W0]
  simp only [before0_0, before0_1, before0_2, before0_3]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (sound_body m c t d1 _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · rw [after0_0]; iexact H0
  isplitl [H1]
  · iexists d1
    rw [after0_1]; unfold wfill; rw [Window.cut_fill]; iexact H1
  isplitl [H2]
  · rw [after0_2]; iexact H2
  · iexists (outBlk (grid0.coords t) (iblk m c 0 t) (win0_1.fill (grid0.coords t) d1 (iblk m c 1 t)) (iblk m c 2 t))
    rw [after0_3]
    have h : win0_3.cut (grid0.coords t) (outBlk (grid0.coords t) (iblk m c 0 t) (win0_1.fill (grid0.coords t) d1 (iblk m c 1 t)) (iblk m c 2 t))
        = win0_3.cut (grid0.coords t) (outBlk (grid0.coords t) (iblk m c 0 t) (wfill m c t) (iblk m c 2 t)) :=
      funext fun jj => (cut_out_apply m c t d1 jj).trans (cut_out_apply m c t _ jj).symm
    rw [win0_3.fill_congr_cut (grid0.coords t) h]
    iexact H3

/-! ## The run, its result named -/

set_option backward.isDefEq.respectTransparency.types false in
/-- Every weakly fair execution of @main terminates; the result's array holds what the write-backs leave, the other
    unscoped buffers what the region found. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The logits of what the region finds: x̂ as the host lines before the region leave it, the weight table, the labels'
    column. -/
abbrev G (c : Dev nD) : S512x84281.Idx → EReal :=
  Spec.logits (V m c main_v4) (V m c main_arg1) (fun b => V m c main_v5 (ix2 b (0 : Fin 1)))

/-- What point t writes back is block t of the logits. -/
theorem flushed3_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after0_3]
  funext jj
  rw [View.read_apply]
  exact cut_out_apply m c t _ jj

/-- An entry of the result is in point t's block iff its row is any and its column in 1024·t‥, below 84281. -/
theorem mem_blk3 (t : Fin cfg0.N) (i : S512x84281.Idx) :
    i ∈ ((cfg0.win 3).blk t).view.set ↔ ∀ a : Fin 2, win0_3.index t a * S512x1024.size a ≤ (i a).val
      ∧ (i a).val < win0_3.index t a * S512x1024.size a + win0_3.xsize (grid0.coords t) a := by
  show i ∈ ((View.whole main_v6).slice (win0_3.rect t)).set ↔ _
  rw [View.set_slice_whole, Rect.mem_set_unit]
  exact Iff.rfl

/-- The 83 blocks written back cover the result: column c is in block c / 1024. -/
theorem cover3 (i : S512x84281.Idx) : ∃ t : Fin cfg0.N, (cfg0.win 3).flush t = true ∧ i ∈ ((cfg0.win 3).blk t).view.set := by
  have hi0 : (i 0).val < 512 := (i 0).isLt
  have hi1 : (i 1).val < 84281 := (i 1).isLt
  have hN : cfg0.N = 83 := N_0
  have ht : (i 1).val / 1024 < cfg0.N := by rw [hN]; omega
  refine ⟨⟨(i 1).val / 1024, ht⟩, flush0_3 _, ?_⟩
  rw [mem_blk3]
  obtain ⟨-, -, -, -, -, -, e6, e7, -, -, -, e11, e12⟩ := idx_facts ⟨(i 1).val / 1024, ht⟩
  intro a
  match a with
  | ⟨0, _⟩ =>
    show win0_3.index _ (0 : Fin 2) * 512 ≤ (i 0).val ∧ (i 0).val < win0_3.index _ (0 : Fin 2) * 512 + win0_3.xsize _ (0 : Fin 2)
    rw [e6, e11]; omega
  | ⟨1, _⟩ =>
    show win0_3.index _ (1 : Fin 2) * 1024 ≤ (i 1).val ∧ (i 1).val < win0_3.index _ (1 : Fin 2) * 1024 + win0_3.xsize _ (1 : Fin 2)
    rw [e7, e12]
    show (i 1).val / 1024 * 1024 ≤ (i 1).val ∧ (i 1).val < (i 1).val / 1024 * 1024 + (if ((i 1).val / 1024 + 1) * 1024 ≤ 84281 then 1024 else 84281 - (i 1).val / 1024 * 1024)
    split <;> omega

/-- THE RESULT after the run: the logits. -/
theorem final3 (c : Dev nD) : (dats m 0 c).arrAt 3 cfg0.N = G m c :=
  (dats m 0 c).arrAt_eq_of_cover 3 (G m c) (fun t _ => flushed3_eq m c t) cover3

/-- The run re-posted: the result at the logits, the arguments unchanged. -/
theorem run_value : θ_run defs (onTc (τ := τ) (main (F := Ideal))) ⟨m, fun _ => 0, ρ⟩ fun r => ∀ c : Dev nD,
      r.2.mem ((c.tc : Thread nD τ).loc main_v6) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (final3 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩)
    (run_main m ρ)

end Cert.KernelIdeal.Exact

end
-- ==== Proof.RefSide.lean ====
/-
  The reference over the extended reals is the specification: read one operation at a time, entry (b, c) of its
  result is the margin map of the cosine of row b of x̂ (x with each row divided by its clamped norm, the program's
  own first five lines) against row c of the weight table divided by ITS clamped norm, selected where c is label b's
  word, times 32.
-/
import proofs.«101190_j19877108646226_1_alg».proof.Proof.Gen.ReferenceIdeal.Run
import proofs.«101190_j19877108646226_1_alg».proof.Proof.Gen.ReferenceIdeal.Read
import proofs.«101190_j19877108646226_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx

/-- Row c of the weight table over its clamped norm, entry k. -/
theorem wn_apply (x1 : (⟨S84281x512, .f32⟩ : BufTy).Contents (Elt Ideal)) (c : Fin 84281) (k : Fin 512) :
    val_main_v9 (F := Ideal) x1 (ix2 c k) = Ideal.div (x1 (ix2 c k)) (Spec.rowDen fun k' => x1 (ix2 c k')) := by
  rw [val_main_v9_apply, val_main_v8_apply, val_main_v7_apply, val_main_v5_apply, val_main_call1_v2_apply,
    val_main_call1_v1_apply, val_main_v6_apply, val_main_cst_0_apply, val_main_call1_cst_apply]
  show Ideal.div _ (max (Ideal.sqrt (Ideal.ofBits .f32 0x00000000#32 + _)) _) = _
  rw [Ideal.ofBits_zero_f32, zero_add]
  unfold Spec.rowDen Spec.eps
  congr 3
  refine Finset.sum_congr rfl fun k' _ => ?_
  have ei : idx_main_call1_v1 (idx_main_call1_v2 (idx_main_v8 (ix2 c k))) k' = ix2 c k' :=
    funext fun a => Fin.ext (by match a with | ⟨0, _⟩ => rfl | ⟨1, _⟩ => rfl)
  rw [val_main_call1_v0_apply, ei]
  rfl

/-- The cosines: the product of x̂ with the normalised table, contracted over the 512 features. -/
theorem cos_apply (x0 : (⟨S512x512, .f32⟩ : BufTy).Contents (Elt Ideal)) (x1 : (⟨S84281x512, .f32⟩ : BufTy).Contents (Elt Ideal))
    (b : Fin 512) (c : Fin 84281) :
    val_main_v10 (F := Ideal) x0 x1 (ix2 b c)
      = Spec.cosine (fun k => val_main_v4 (F := Ideal) x0 (ix2 b k)) (fun k => x1 (ix2 c k)) := by
  rw [val_main_v10_apply]; unfold Spec.cosine
  refine Finset.sum_congr rfl fun k _ => ?_
  have el : lidx_main_v10 (ix2 b c) k = ix2 b k := funext fun a => Fin.ext (by match a with | ⟨0, _⟩ => rfl | ⟨1, _⟩ => rfl)
  have er : ridx_main_v10 (ix2 b c) k = ix2 c k := funext fun a => Fin.ext (by match a with | ⟨0, _⟩ => rfl | ⟨1, _⟩ => rfl)
  rw [el, er, wn_apply]

/-- The one-hot test: column c's word against label b's. -/
theorem hit_apply (x2 : (⟨S512, .i32⟩ : BufTy).Contents (Elt Ideal)) (b : Fin 512) (c : Fin 84281) :
    val_main_v34 (F := Ideal) x2 (ix2 b c) = IntOp.cmpi .eq (BitVec.ofNat 32 c.val) (x2 (ix1 b)) := by
  rw [val_main_v34_apply, val_main_v32_apply, val_main_v30_apply, val_main_v29_apply, val_main_v33_apply, val_main_v31_apply]
  have e1 : idx_main_v31 (idx_main_v33 (ix2 b c)) = ix1 b := funext fun a => Fin.ext (by match a with | ⟨0, _⟩ => rfl)
  rw [e1]

/-- THE REFERENCE IS THE SPECIFICATION, entry by entry. -/
theorem ref_eq (x0 : (⟨S512x512, .f32⟩ : BufTy).Contents (Elt Ideal)) (x1 : (⟨S84281x512, .f32⟩ : BufTy).Contents (Elt Ideal))
    (x2 : (⟨S512, .i32⟩ : BufTy).Contents (Elt Ideal)) :
    val_main_v37 (F := Ideal) x0 x1 x2 = Spec.logits (val_main_v4 (F := Ideal) x0) x1 (fun b => x2 (ix1 b)) := by
  funext i
  obtain ⟨b, c, rfl⟩ : ∃ (b : Fin 512) (c : Fin 84281), i = ix2 b c := ⟨i 0, i 1, eq_ix2 i⟩
  rw [val_main_v37_apply, val_main_v36_apply, val_main_cst_8_apply, val_main_v35_apply, hit_apply, val_main_v28_apply,
    val_main_v25_apply, val_main_v23_apply, val_main_v22_apply, val_main_cst_5_apply, val_main_v24_apply, val_main_cst_6_apply,
    val_main_v21_apply, val_main_v18_apply, val_main_v17_apply, val_main_cst_3_apply, val_main_v20_apply, val_main_v19_apply,
    val_main_cst_4_apply, val_main_v16_apply, val_main_v15_apply, val_main_v14_apply, val_main_cst_2_apply, val_main_v13_apply,
    val_main_v12_apply, val_main_cst_1_apply, val_main_v11_apply, val_main_v27_apply, val_main_v26_apply, val_main_cst_7_apply,
    cos_apply]
  rfl

end Cert.ReferenceIdeal.RefValue

end
-- ==== Proof.Bridge.lean ====
/-
  The two programs' host lines before the product are the same lines: the idealized kernel's x̂ (x over its rows'
  clamped norms, computed on the host before the region) is the reference's, and the labels' column the region
  stages is the label vector re-laid, entry (b, 0) being label b.
-/
import proofs.«101190_j19877108646226_1_alg».proof.Proof.KIExact
import proofs.«101190_j19877108646226_1_alg».proof.Proof.RefSide
import Idealize.ShloMosaic.Lib.StableHlo.Run

noncomputable section

namespace Cert.KernelIdeal.Bridge

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- x̂ as the region finds it is the reference's x̂ of the same x. -/
theorem xhat_eq (c : Dev nD) :
    (V m c main_v4 : S512x512.Idx → EReal) = Cert.ReferenceIdeal.Read.val_main_v4 (F := Ideal) (m ((c.tc : Thread nD τ).loc main_arg0)) := by
  dsimp only [V]
  simp only [hostOps0, hostOps0_1, List.flatten_cons, List.flatten_nil, List.append_nil, List.cons_append, List.nil_append]
  after_results
  rfl

/-- The labels' column as the region finds it: the label vector re-laid as [512, 1]. -/
theorem lblcol_eq (c : Dev nD) :
    (V m c main_v5 : S512x1.Idx → BitVec 32) = shapeCast S512x1 (m ((c.tc : Thread nD τ).loc main_arg2)) shapeCasts_S512_S512x1 := by
  dsimp only [V]
  simp only [hostOps0, hostOps0_1, List.flatten_cons, List.flatten_nil, List.append_nil, List.cons_append, List.nil_append]
  after_results
  rfl

/-- Its entry (b, 0) is label b. -/
theorem lbl_apply (c : Dev nD) (b : Fin 512) :
    V m c main_v5 (ix2 b (0 : Fin 1)) = m ((c.tc : Thread nD τ).loc main_arg2) (ix1 b) := by
  rw [lblcol_eq]
  exact shapeCast_apply _ shapeCasts_S512_S512x1 (ix2 b (0 : Fin 1)) (ix1 b) (by
    rw [Shape.rowMajor_val_one, Shape.rowMajor_val_two]; show b.val = b.val * 1 + 0; omega)

end Cert.KernelIdeal.Bridge

end
-- ==== Proof.lean ====
/-
  The certificate: the additive-angular-margin logits kernel against its jnp reference, over the extended reals.

  Both programs normalise x row by row on the host (the same five lines) and differ only in where the weight
  table's rows are normalised and multiplied in: the reference does it on the host for all 84281 rows at once, the
  kernel in 83 blocks of 1024 rows, each block's cosines against the resident x̂ followed by the margin map, the
  one-hot select on the labels and the scale by 32, written to columns 1024·c‥ of the result. The last block
  overhangs the table: its staging rows past row 84280 hold words nothing names, and the columns they would give
  are not written back.

  Frames: the body is four whole-buffer accesses; for the frame the result's window is forgotten (at the word
  level the matrix unit's product is not stated column by column, so what the last block's kept columns hold is not
  named there), and x, the table and the labels end as they began. Value: over the extended reals entry (b, j) of
  a stored block reads row j of the staged weight block alone, so the kept columns are the specification's logits
  of rows inside the table, the written-back blocks tile the result, and the reference, read operation by
  operation, is the same specification of the same x̂, table and labels.
-/
import proofs.«101190_j19877108646226_1_alg».proof.Defs
import proofs.«101190_j19877108646226_1_alg».proof.Proof.Gen.Kernel
import proofs.«101190_j19877108646226_1_alg».proof.Proof.Gen.KernelIdeal
import proofs.«101190_j19877108646226_1_alg».proof.Proof.Gen.ReferenceIdeal
import proofs.«101190_j19877108646226_1_alg».proof.Proof.Gen.Pre_finite_inputs
import proofs.«101190_j19877108646226_1_alg».proof.Proof.KFrame
import proofs.«101190_j19877108646226_1_alg».proof.Proof.KIFrame
import proofs.«101190_j19877108646226_1_alg».proof.Proof.KIExact
import proofs.«101190_j19877108646226_1_alg».proof.Proof.RefSide
import proofs.«101190_j19877108646226_1_alg».proof.Proof.Bridge
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Body.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Body.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result at the specification's logits of x̂, the weight table and the labels. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Exact.G m c, Cert.KernelIdeal.Exact.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_eq, (hagree c).1, (hagree c).2.1, (hagree c).2.2]
  unfold Cert.KernelIdeal.Exact.G
  beta_reduce
  rw [Cert.KernelIdeal.Bridge.xhat_eq m c, Cert.KernelIdeal.Gen.V_main_arg1 m c]
  exact congrArg _ (funext fun b => (Cert.KernelIdeal.Bridge.lbl_apply m c b).symm)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
